-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S6400000 : Shape := ⟨1, ![6400000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S16x16 .f32) (main_arg7 : FVec F S16 .f32) (main_arg8 : FVec F S16x1 .f32) (main_arg9 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg8
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg9 main_v33

def fn {F : FTy → Type} [FloatOps F] (main_arg0 : FVec F S200000x128 .f32) (main_arg1 : IVec S6400000 32) (main_arg2 : IVec S6400000 32) (main_arg3 : FVec F S6400000 .f32) (main_arg4 : FVec F S128x16 .f32) (main_arg5 : FVec F S16 .f32) (main_arg6 : FVec F S16x16 .f32) (main_arg7 : FVec F S16 .f32) (main_arg8 : FVec F S16x1 .f32) (main_arg9 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S6400000 .f32 := Host.absf main_arg3
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_v13 main_v16
-- ==== Kernel.lean ====
abbrev S200000x128 : Shape := ⟨2, ![200000, 128]⟩
abbrev S6400000 : Shape := ⟨1, ![6400000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S200000x16 : Shape := ⟨2, ![200000, 16]⟩
abbrev S20000x128 : Shape := ⟨2, ![20000, 128]⟩
abbrev S20000x16 : Shape := ⟨2, ![20000, 16]⟩
abbrev S_ : Shape := ⟨0, ![]⟩
abbrev S6400000x1 : Shape := ⟨2, ![6400000, 1]⟩
abbrev S6400000x16 : Shape := ⟨2, ![6400000, 16]⟩
abbrev S1x16 : Shape := ⟨2, ![1, 16]⟩
abbrev S1x1 : Shape := ⟨2, ![1, 1]⟩
abbrev S200000x1 : Shape := ⟨2, ![200000, 1]⟩
abbrev S20000x1 : Shape := ⟨2, ![20000, 1]⟩

abbrev nBuf : Space → Nat
  | .hbm => 48
  | .vmem => 18
  | .smem => 0
  | _ => 0

abbrev bufTy : (tb : Table) → Fin (tcTables nBuf tb) → BufTy
  | .hbm, ⟨0, _⟩ => ⟨S200000x128, .f32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S128x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S200000x16, .f32⟩
  | .hbm, ⟨11, _⟩ => ⟨S_, .i32⟩
  | .hbm, ⟨12, _⟩ => ⟨S6400000, .i32⟩
  | .hbm, ⟨13, _⟩ => ⟨S6400000, .i1⟩
  | .hbm, ⟨14, _⟩ => ⟨S_, .i32⟩
  | .hbm, ⟨15, _⟩ => ⟨S6400000, .i32⟩
  | .hbm, ⟨16, _⟩ => ⟨S6400000, .i32⟩
  | .hbm, ⟨17, _⟩ => ⟨S6400000, .i32⟩
  | .hbm, ⟨18, _⟩ => ⟨S6400000x1, .i32⟩
  | .hbm, ⟨19, _⟩ => ⟨S6400000x16, .f32⟩
  | .hbm, ⟨20, _⟩ => ⟨S6400000x1, .f32⟩
  | .hbm, ⟨21, _⟩ => ⟨S6400000x16, .f32⟩
  | .hbm, ⟨22, _⟩ => ⟨S6400000x16, .f32⟩
  | .hbm, ⟨23, _⟩ => ⟨S_, .f32⟩
  | .hbm, ⟨24, _⟩ => ⟨S200000x16, .f32⟩
  | .hbm, ⟨25, _⟩ => ⟨S6400000x1, .i32⟩
  | .hbm, ⟨26, _⟩ => ⟨S200000x16, .f32⟩
  | .hbm, ⟨27, _⟩ => ⟨S1x16, .f32⟩
  | .hbm, ⟨28, _⟩ => ⟨S200000x16, .f32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000x16, .f32⟩
  | .hbm, ⟨38, _⟩ => ⟨S6400000x1, .f32⟩
  | .hbm, ⟨39, _⟩ => ⟨S6400000x16, .f32⟩
  | .hbm, ⟨40, _⟩ => ⟨S6400000x16, .f32⟩
  | .hbm, ⟨41, _⟩ => ⟨S_, .f32⟩
  | .hbm, ⟨42, _⟩ => ⟨S200000x16, .f32⟩
  | .hbm, ⟨43, _⟩ => ⟨S6400000x1, .i32⟩
  | .hbm, ⟨44, _⟩ => ⟨S200000x16, .f32⟩
  | .hbm, ⟨45, _⟩ => ⟨S1x16, .f32⟩
  | .hbm, ⟨46, _⟩ => ⟨S1x1, .f32⟩
  | .hbm, ⟨47, _⟩ => ⟨S200000x1, .f32⟩
  | .local _ .vmem, ⟨0, _⟩ => ⟨S20000x128, .f32⟩
  | .local _ .vmem, ⟨1, _⟩ => ⟨S20000x128, .f32⟩
  | .local _ .vmem, ⟨2, _⟩ => ⟨S128x16, .f32⟩
  | .local _ .vmem, ⟨3, _⟩ => ⟨S20000x16, .f32⟩
  | .local _ .vmem, ⟨4, _⟩ => ⟨S20000x16, .f32⟩
  | .local _ .vmem, ⟨5, _⟩ => ⟨S20000x16, .f32⟩
  | .local _ .vmem, ⟨6, _⟩ => ⟨S20000x16, .f32⟩
  | .local _ .vmem, ⟨7, _⟩ => ⟨S1x16, .f32⟩
  | .local _ .vmem, ⟨8, _⟩ => ⟨S16x16, .f32⟩
  | .local _ .vmem, ⟨9, _⟩ => ⟨S20000x16, .f32⟩
  | .local _ .vmem, ⟨10, _⟩ => ⟨S20000x16, .f32⟩
  | .local _ .vmem, ⟨11, _⟩ => ⟨S20000x16, .f32⟩
  | .local _ .vmem, ⟨12, _⟩ => ⟨S20000x16, .f32⟩
  | .local _ .vmem, ⟨13, _⟩ => ⟨S1x16, .f32⟩
  | .local _ .vmem, ⟨14, _⟩ => ⟨S16x1, .f32⟩
  | .local _ .vmem, ⟨15, _⟩ => ⟨S1x1, .f32⟩
  | .local _ .vmem, ⟨16, _⟩ => ⟨S20000x1, .f32⟩
  | .local _ .vmem, ⟨17, _⟩ => ⟨S20000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S20000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S20000x128_S20000x128_0_0 : ∀ a, (![0, 0] : Fin 2 → Nat) a + S20000x128.size a ≤ S20000x128.size a
  h_S20000x128 : 0 < S20000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S20000x16_S20000x16_0_0 : ∀ a, (![0, 0] : Fin 2 → Nat) a + S20000x16.size a ≤ S20000x16.size a
  h_S20000x16 : 0 < S20000x16.numel
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  shapeCasts_S16_S1x16 : S16.ShapeCasts S1x16
  shapeCasts_S20000x16_S20000x16 : S20000x16.ShapeCasts S20000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x16_S16x16_0_0 : ∀ a, (![0, 0] : Fin 2 → Nat) a + S16x16.size a ≤ S16x16.size a
  h_S16x16 : 0 < S16x16.numel
  shapeCasts_S1_S1x1 : S1.ShapeCasts S1x1
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  dot_S20000x128_S128x16_S20000x16_1_0_0_1_n_n_wf : DotDims.WF S20000x128 S128x16 S20000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S20000x16_S16x16_S20000x16_1_0_0_1_n_n_wf : DotDims.WF S20000x16 S16x16 S20000x16 [1] [0] [0] [1] [] []
  dot_S20000x16_S16x1_S20000x1_1_0_0_1_n_n_wf : DotDims.WF S20000x16 S16x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S200000x128.size a
  hwx0_0 : ∀ i : grid0.Coords, EltTy.bits .f32 = 32 ∨ (Rect.block (s := S200000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x16.size a ≤ S200000x16.size a
  hwx0_2 : ∀ i : grid0.Coords, EltTy.bits .f32 = 32 ∨ (Rect.block (s := S200000x16) S20000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S200000x16.size a
  hwx1_0 : ∀ i : grid1.Coords, EltTy.bits .f32 = 32 ∨ (Rect.block (s := S200000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x16.size a ≤ S200000x16.size a
  hwx1_3 : ∀ i : grid1.Coords, EltTy.bits .f32 = 32 ∨ (Rect.block (s := S200000x16) S20000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x16.size a ≤ S200000x16.size a
  hwx2_0 : ∀ i : grid2.Coords, EltTy.bits .f32 = 32 ∨ (Rect.block (s := S200000x16) S20000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S20000x1.size a ≤ S200000x1.size a
  hwx2_4 : ∀ i : grid2.Coords, EltTy.bits .f32 = 32 ∨ (Rect.block (s := S200000x1) S20000x1.size (cc2_transform_4 i) (hinb2_4 i)).WholeWords (EltTy.packing .f32)

variable [Facts₀]

def dot_S20000x128_S128x16_S20000x16_1_0_0_1_n_n : DotDims S20000x128 S128x16 S20000x16 where
  lhsContracting := [1]
  rhsContracting := [0]
  lhsNonContracting := [0]
  rhsNonContracting := [1]
  lhsBatch := []
  rhsBatch := []
  wf := dot_S20000x128_S128x16_S20000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S20000x16_S16x16_S20000x16_1_0_0_1_n_n : DotDims S20000x16 S16x16 S20000x16 where
  lhsContracting := [1]
  rhsContracting := [0]
  lhsNonContracting := [0]
  rhsNonContracting := [1]
  lhsBatch := []
  rhsBatch := []
  wf := dot_S20000x16_S16x16_S20000x16_1_0_0_1_n_n_wf
def dot_S20000x16_S16x1_S20000x1_1_0_0_1_n_n : DotDims S20000x16 S16x1 S20000x1 where
  lhsContracting := [1]
  rhsContracting := [0]
  lhsNonContracting := [0]
  rhsNonContracting := [1]
  lhsBatch := []
  rhsBatch := []
  wf := dot_S20000x16_S16x1_S20000x1_1_0_0_1_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S20000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S20000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S20000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S20000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S200000x128 : Shape := ⟨2, ![200000, 128]⟩
abbrev S6400000 : Shape := ⟨1, ![6400000]⟩
abbrev S128x16 : Shape := ⟨2, ![128, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S200000x16 : Shape := ⟨2, ![200000, 16]⟩
abbrev S_ : Shape := ⟨0, ![]⟩
abbrev S6400000x1 : Shape := ⟨2, ![6400000, 1]⟩
abbrev S6400000x16 : Shape := ⟨2, ![6400000, 16]⟩
abbrev S1x16 : Shape := ⟨2, ![1, 16]⟩
abbrev S200000x1 : Shape := ⟨2, ![200000, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S128x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S200000x16, .f32⟩
  | .hbm, ⟨11, _⟩ => ⟨S_, .i32⟩
  | .hbm, ⟨12, _⟩ => ⟨S6400000, .i32⟩
  | .hbm, ⟨13, _⟩ => ⟨S6400000, .i1⟩
  | .hbm, ⟨14, _⟩ => ⟨S_, .i32⟩
  | .hbm, ⟨15, _⟩ => ⟨S6400000, .i32⟩
  | .hbm, ⟨16, _⟩ => ⟨S6400000, .i32⟩
  | .hbm, ⟨17, _⟩ => ⟨S6400000, .i32⟩
  | .hbm, ⟨18, _⟩ => ⟨S6400000x1, .i32⟩
  | .hbm, ⟨19, _⟩ => ⟨S6400000x16, .f32⟩
  | .hbm, ⟨20, _⟩ => ⟨S6400000x1, .f32⟩
  | .hbm, ⟨21, _⟩ => ⟨S6400000x16, .f32⟩
  | .hbm, ⟨22, _⟩ => ⟨S6400000x16, .f32⟩
  | .hbm, ⟨23, _⟩ => ⟨S_, .f32⟩
  | .hbm, ⟨24, _⟩ => ⟨S200000x16, .f32⟩
  | .hbm, ⟨25, _⟩ => ⟨S6400000x1, .i32⟩
  | .hbm, ⟨26, _⟩ => ⟨S200000x16, .f32⟩
  | .hbm, ⟨27, _⟩ => ⟨S1x16, .f32⟩
  | .hbm, ⟨28, _⟩ => ⟨S200000x16, .f32⟩
  | .hbm, ⟨29, _⟩ => ⟨S200000x16, .f32⟩
  | .hbm, ⟨30, _⟩ => ⟨S_, .f32⟩
  | .hbm, ⟨31, _⟩ => ⟨S200000x16, .f32⟩
  | .hbm, ⟨32, _⟩ => ⟨S200000x16, .f32⟩
  | .hbm, ⟨33, _⟩ => ⟨S200000x16, .f32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000x16, .f32⟩
  | .hbm, ⟨43, _⟩ => ⟨S6400000x1, .f32⟩
  | .hbm, ⟨44, _⟩ => ⟨S6400000x16, .f32⟩
  | .hbm, ⟨45, _⟩ => ⟨S6400000x16, .f32⟩
  | .hbm, ⟨46, _⟩ => ⟨S_, .f32⟩
  | .hbm, ⟨47, _⟩ => ⟨S200000x16, .f32⟩
  | .hbm, ⟨48, _⟩ => ⟨S6400000x1, .i32⟩
  | .hbm, ⟨49, _⟩ => ⟨S200000x16, .f32⟩
  | .hbm, ⟨50, _⟩ => ⟨S1x16, .f32⟩
  | .hbm, ⟨51, _⟩ => ⟨S200000x16, .f32⟩
  | .hbm, ⟨52, _⟩ => ⟨S200000x16, .f32⟩
  | .hbm, ⟨53, _⟩ => ⟨S_, .f32⟩
  | .hbm, ⟨54, _⟩ => ⟨S200000x16, .f32⟩
  | .hbm, ⟨55, _⟩ => ⟨S200000x16, .f32⟩
  | .hbm, ⟨56, _⟩ => ⟨S200000x1, .f32⟩
  | .hbm, ⟨57, _⟩ => ⟨S1x1, .f32⟩
  | .hbm, ⟨58, _⟩ => ⟨S200000x1, .f32⟩
  | .hbm, ⟨59, _⟩ => ⟨S200000x1, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x128_S128x16_S200000x16_1_0_0_1_n_n_wf : DotDims.WF S200000x128 S128x16 S200000x16 [1] [0] [0] [1] [] []
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x16_S200000x16_1_0_0_1_n_n_wf : DotDims.WF S200000x16 S16x16 S200000x16 [1] [0] [0] [1] [] []
  dot_S200000x16_S16x1_S200000x1_1_0_0_1_n_n_wf : DotDims.WF S200000x16 S16x1 S200000x1 [1] [0] [0] [1] [] []

variable [Facts₀]

def dot_S200000x128_S128x16_S200000x16_1_0_0_1_n_n : DotDims S200000x128 S128x16 S200000x16 where
  lhsContracting := [1]
  rhsContracting := [0]
  lhsNonContracting := [0]
  rhsNonContracting := [1]
  lhsBatch := []
  rhsBatch := []
  wf := dot_S200000x128_S128x16_S200000x16_1_0_0_1_n_n_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Layers.lean ====
/-
  The three dense layers of the network, as whole-array functions at the ideal values.

  A layer is a rows-by-columns product, possibly after "add the bias row to every row, then take the maximum with
  zero", possibly followed by "add one more number to every entry". At the ideal values a change of float format is
  the identity and a product into a zero accumulator is the bare sum over the contracted axis, so what one tile of
  rows computes is the same function of its rows as what the whole array computes of all rows: nothing in an output
  row depends on another row. The lemmas below read each layer at an entry `(p, q)`.
-/
import proofs.«167004_j62491774157019_1_alg».proof.Proof.LibDot
import Idealize.ShloMosaic.Lib.Pipeline.Value
import Idealize.ShloMosaic.Lib.ValueLayout

noncomputable section

namespace Cert.GNN

open Idealize.ShloMosaic Idealize.ShloMosaic.ValueIdx

variable {M K N : ℕ}

/-- The zero word of the 32-bit float format, at the ideal values. -/
abbrev zero32 : Ideal .f32 := Ideal.ofBits .f32 0x00000000#32

/-- Rows by columns: entry `(p, q)` is the sum over `k` of `x (p, k) · W (k, q)`. -/
def prod (x : FVec Ideal ⟨2, ![M, K]⟩ .f32) (W : FVec Ideal ⟨2, ![K, N]⟩ .f32) : FVec Ideal ⟨2, ![M, N]⟩ .f32 :=
  fun i => ∑ k : Fin K, x (ix2 (⟨(i 0).val, idx2_lt0 i⟩ : Fin M) k) * W (ix2 k (⟨(i 1).val, idx2_lt1 i⟩ : Fin N))

theorem prod_apply (x : FVec Ideal ⟨2, ![M, K]⟩ .f32) (W : FVec Ideal ⟨2, ![K, N]⟩ .f32) (p : Fin M) (q : Fin N) :
    prod x W (ix2 p q) = ∑ k : Fin K, x (ix2 p k) * W (ix2 k q) := rfl

/-- The bias row `b` (a `1 × K` array) added to every row of `A`, then the maximum with zero. -/
def rect (A : FVec Ideal ⟨2, ![M, K]⟩ .f32) (b : FVec Ideal ⟨2, ![1, K]⟩ .f32) : FVec Ideal ⟨2, ![M, K]⟩ .f32 :=
  fun i => max (A i + b (ix2 (0 : Fin 1) (⟨(i 1).val, idx2_lt1 i⟩ : Fin K))) zero32

theorem rect_apply (A : FVec Ideal ⟨2, ![M, K]⟩ .f32) (b : FVec Ideal ⟨2, ![1, K]⟩ .f32) (p : Fin M) (k : Fin K) :
    rect A b (ix2 p k) = max (A (ix2 p k) + b (ix2 (0 : Fin 1) k)) zero32 := rfl

/-- One number `d` (a `1 × N` row, read at its column) added to every row of `A`. -/
def shift (A : FVec Ideal ⟨2, ![M, N]⟩ .f32) (d : FVec Ideal ⟨2, ![1, N]⟩ .f32) : FVec Ideal ⟨2, ![M, N]⟩ .f32 :=
  fun i => A i + d (ix2 (0 : Fin 1) (⟨(i 1).val, idx2_lt1 i⟩ : Fin N))

theorem shift_apply (A : FVec Ideal ⟨2, ![M, N]⟩ .f32) (d : FVec Ideal ⟨2, ![1, N]⟩ .f32) (p : Fin M) (q : Fin N) :
    shift A d (ix2 p q) = A (ix2 p q) + d (ix2 (0 : Fin 1) q) := rfl

/-! ## What a kernel body computes of its loaded tiles -/

/-- A product of two tiles narrowed to the 16-bit format, into the zero accumulator: the plain product of the tiles. -/
theorem tile_prod (d : DotDims ⟨2, ![M, K]⟩ ⟨2, ![K, N]⟩ ⟨2, ![M, N]⟩) (hd : d = DotDims.plain M K N)
    (h : FTy.bits .bf16 < FTy.bits .f32) (x : FVec Ideal ⟨2, ![M, K]⟩ .f32) (W : FVec Ideal ⟨2, ![K, N]⟩ .f32) :
    FloatOps.matmul d none (truncf .bf16 x h) (truncf .bf16 W h) (constant ⟨2, ![M, N]⟩ .f32 0x00000000#32) = prod x W := by
  subst hd
  funext j
  obtain ⟨p, q, rfl⟩ : ∃ (p : Fin M) (q : Fin N), j = ix2 p q := ⟨j 0, j 1, eq_ix2 j⟩
  rw [matmul_plain_zero_apply, prod_apply]
  rfl

/-- The bias row broadcast over the tile's rows, added, and cut at zero by a splat of the zero word: `rect`. -/
theorem tile_rect (hb : (⟨2, ![1, K]⟩ : Shape).Broadcasts ⟨2, ![M, K]⟩)
    (A : FVec Ideal ⟨2, ![M, K]⟩ .f32) (b : FVec Ideal ⟨2, ![1, K]⟩ .f32) :
    maximumf (addf A (broadcastTo ⟨2, ![M, K]⟩ b hb)) (broadcast ⟨2, ![M, K]⟩ (Scalar.ofBits (F := Ideal) .f32 0x00000000#32)) = rect A b := by
  funext j
  obtain ⟨p, k, rfl⟩ : ∃ (p : Fin M) (k : Fin K), j = ix2 p k := ⟨j 0, j 1, eq_ix2 j⟩
  rw [maximumf_apply, addf_apply, broadcast_apply, broadcastTo_1b_ab_apply, rect_apply]
  rfl

/-- A one-row array broadcast over the tile's rows and added: `shift`. -/
theorem tile_shift (hb : (⟨2, ![1, N]⟩ : Shape).Broadcasts ⟨2, ![M, N]⟩)
    (A : FVec Ideal ⟨2, ![M, N]⟩ .f32) (d : FVec Ideal ⟨2, ![1, N]⟩ .f32) :
    addf A (broadcastTo ⟨2, ![M, N]⟩ d hb) = shift A d := by
  funext j
  obtain ⟨p, q, rfl⟩ : ∃ (p : Fin M) (q : Fin N), j = ix2 p q := ⟨j 0, j 1, eq_ix2 j⟩
  rw [addf_apply, broadcastTo_1b_ab_apply, shift_apply]

/-- The middle layer's body: the tile plus the bias row, cut at zero, narrowed, times the narrowed weight tile, into the
    zero accumulator (the two same-shape casts are the identity). -/
theorem tile_hidden (d : DotDims ⟨2, ![M, K]⟩ ⟨2, ![K, N]⟩ ⟨2, ![M, N]⟩) (hd : d = DotDims.plain M K N)
    (h : FTy.bits .bf16 < FTy.bits .f32)
    (hc1 : (⟨2, ![M, K]⟩ : Shape).ShapeCasts ⟨2, ![M, K]⟩) (hc2 : (⟨2, ![1, K]⟩ : Shape).ShapeCasts ⟨2, ![1, K]⟩)
    (hb : (⟨2, ![1, K]⟩ : Shape).Broadcasts ⟨2, ![M, K]⟩)
    (A : FVec Ideal ⟨2, ![M, K]⟩ .f32) (b : FVec Ideal ⟨2, ![1, K]⟩ .f32) (W : FVec Ideal ⟨2, ![K, N]⟩ .f32) :
    FloatOps.matmul d none
        (truncf .bf16 (maximumf (addf (shapeCast ⟨2, ![M, K]⟩ A hc1) (broadcastTo ⟨2, ![M, K]⟩ (shapeCast ⟨2, ![1, K]⟩ b hc2) hb))
          (broadcast ⟨2, ![M, K]⟩ (Scalar.ofBits (F := Ideal) .f32 0x00000000#32))) h)
        (truncf .bf16 W h) (constant ⟨2, ![M, N]⟩ .f32 0x00000000#32)
      = prod (rect A b) W := by
  rw [shapeCast_self, shapeCast_self, tile_rect]
  exact tile_prod d hd h _ W

/-- The last layer's body: the middle layer's, then one more row broadcast over the tile and added. -/
theorem tile_head (d : DotDims ⟨2, ![M, K]⟩ ⟨2, ![K, N]⟩ ⟨2, ![M, N]⟩) (hd : d = DotDims.plain M K N)
    (h : FTy.bits .bf16 < FTy.bits .f32)
    (hc1 : (⟨2, ![M, K]⟩ : Shape).ShapeCasts ⟨2, ![M, K]⟩) (hc2 : (⟨2, ![1, K]⟩ : Shape).ShapeCasts ⟨2, ![1, K]⟩)
    (hb : (⟨2, ![1, K]⟩ : Shape).Broadcasts ⟨2, ![M, K]⟩)
    (hc3 : (⟨2, ![1, N]⟩ : Shape).ShapeCasts ⟨2, ![1, N]⟩) (hb3 : (⟨2, ![1, N]⟩ : Shape).Broadcasts ⟨2, ![M, N]⟩)
    (A : FVec Ideal ⟨2, ![M, K]⟩ .f32) (b : FVec Ideal ⟨2, ![1, K]⟩ .f32) (W : FVec Ideal ⟨2, ![K, N]⟩ .f32)
    (e : FVec Ideal ⟨2, ![1, N]⟩ .f32) :
    addf (FloatOps.matmul d none
        (truncf .bf16 (maximumf (addf (shapeCast ⟨2, ![M, K]⟩ A hc1) (broadcastTo ⟨2, ![M, K]⟩ (shapeCast ⟨2, ![1, K]⟩ b hc2) hb))
          (broadcast ⟨2, ![M, K]⟩ (Scalar.ofBits (F := Ideal) .f32 0x00000000#32))) h)
        (truncf .bf16 W h) (constant ⟨2, ![M, N]⟩ .f32 0x00000000#32))
        (broadcastTo ⟨2, ![M, N]⟩ (shapeCast ⟨2, ![1, N]⟩ e hc3) hb3)
      = shift (prod (rect A b) W) e := by
  rw [tile_hidden d hd h hc1 hc2 hb, shapeCast_self, tile_shift]

/-! ## A tile of rows computes what the whole array computes at those rows -/

/-- If a tile `xb` holds, row for row, the rows of `X` that `i`'s row coordinate names, then the layer of the tile at `j` is
    the layer of the whole array at `i` (same column): an output row depends on its own input row only. -/
theorem prod_rect_rows {M' : ℕ} (X : FVec Ideal ⟨2, ![M', K]⟩ .f32) (xb : FVec Ideal ⟨2, ![M, K]⟩ .f32)
    (b : FVec Ideal ⟨2, ![1, K]⟩ .f32) (W : FVec Ideal ⟨2, ![K, N]⟩ .f32)
    (j : (⟨2, ![M, N]⟩ : Shape).Idx) (i : (⟨2, ![M', N]⟩ : Shape).Idx) (hcol : (i 1).val = (j 1).val)
    (hrow : ∀ k : Fin K, xb (ix2 (⟨(j 0).val, idx2_lt0 j⟩ : Fin M) k) = X (ix2 (⟨(i 0).val, idx2_lt0 i⟩ : Fin M') k)) :
    prod (rect xb b) W j = prod (rect X b) W i := by
  unfold prod
  have hc : (⟨(j 1).val, idx2_lt1 j⟩ : Fin N) = ⟨(i 1).val, idx2_lt1 i⟩ := Fin.ext hcol.symm
  refine Finset.sum_congr rfl fun k _ => ?_
  rw [rect_apply, rect_apply, hrow k, hc]

/-- The same for the last layer, with the one more row added. -/
theorem shift_prod_rect_rows {M' : ℕ} (X : FVec Ideal ⟨2, ![M', K]⟩ .f32) (xb : FVec Ideal ⟨2, ![M, K]⟩ .f32)
    (b : FVec Ideal ⟨2, ![1, K]⟩ .f32) (W : FVec Ideal ⟨2, ![K, N]⟩ .f32) (e : FVec Ideal ⟨2, ![1, N]⟩ .f32)
    (j : (⟨2, ![M, N]⟩ : Shape).Idx) (i : (⟨2, ![M', N]⟩ : Shape).Idx) (hcol : (i 1).val = (j 1).val)
    (hrow : ∀ k : Fin K, xb (ix2 (⟨(j 0).val, idx2_lt0 j⟩ : Fin M) k) = X (ix2 (⟨(i 0).val, idx2_lt0 i⟩ : Fin M') k)) :
    shift (prod (rect xb b) W) e j = shift (prod (rect X b) W) e i := by
  unfold shift
  have hc : (⟨(j 1).val, idx2_lt1 j⟩ : Fin N) = ⟨(i 1).val, idx2_lt1 i⟩ := Fin.ext hcol.symm
  rw [prod_rect_rows X xb b W j i hcol hrow, hc]

end Cert.GNN

end
-- ==== Proof.Agg.lean ====
/-
  The sparse aggregation between two dense layers, as one function.

  Every edge `e` reads row `src e` of the projected features (a negative index counted from the end, as array indexing
  does), scales it by the edge's weight, and adds it into row `dst e` of an array that starts at zero. Both programs
  do this on the host with the same operations in the same order, so neither side of the comparison ever looks
  inside it: it is carried as the single function `agg` of the projected features, the two index arrays and the
  weights.
-/
import proofs.«167004_j62491774157019_1_alg».proof.Proof.Gen.KernelIdeal
import Idealize.ShloMosaic.PureOps.Ideal
import proofs.«167004_j62491774157019_1_alg».proof.Proof.Layers

noncomputable section

namespace Cert.GNN

open Idealize.ShloMosaic Cert.KernelIdeal Cert.KernelIdeal.Gen

/-- Gather the rows at the source indices, scale each by its edge's weight, add them up at the destination indices. -/
def agg (P : (⟨S200000x16, .f32⟩ : BufTy).Contents (Elt Ideal))
    (src dst : (⟨S6400000, .i32⟩ : BufTy).Contents (Elt Ideal))
    (w : (⟨S6400000, .f32⟩ : BufTy).Contents (Elt Ideal)) : (⟨S200000x16, .f32⟩ : BufTy).Contents (Elt Ideal) :=
  Host.scatterAdd scatter_S200000x16_S6400000x1_S6400000x16_1_0_0_1
    (broadcastInDim S200000x16 ![] bcast_S_S200000x16 (constant (F := Ideal) S_ .f32 0x00000000#32))
    (broadcastInDim S6400000x1 ![0] bcast_S6400000_S6400000x1_0 dst)
    (mulf
      (Host.gather gather_S200000x16_S6400000x1_S6400000x16_1_0_n_n_0_1_116 P
        (broadcastInDim S6400000x1 ![0] bcast_S6400000_S6400000x1_0
          (select (cmpi .slt src (broadcastInDim S6400000 ![] bcast_S_S6400000 (constantI S_ 32 0#32)))
            (addi src (broadcastInDim S6400000 ![] bcast_S_S6400000 (constantI S_ 32 200000#32))) src)))
      (broadcastInDim S6400000x16 ![0, 1] bcast_S6400000x1_S6400000x16_0_1
        (broadcastInDim S6400000x1 ![0] bcast_S6400000_S6400000x1_0 w)))

/-- The whole network as one function of its ten arguments: project, aggregate, (bias, cut at zero, project), aggregate,
    (bias, cut at zero, project to one column, add the output bias). The two bias vectors and the output bias enter as
    one-row arrays. -/
def net (x : (⟨S200000x128, .f32⟩ : BufTy).Contents (Elt Ideal))
    (src dst : (⟨S6400000, .i32⟩ : BufTy).Contents (Elt Ideal)) (w : (⟨S6400000, .f32⟩ : BufTy).Contents (Elt Ideal))
    (W1 : (⟨S128x16, .f32⟩ : BufTy).Contents (Elt Ideal)) (b1 : (⟨S16, .f32⟩ : BufTy).Contents (Elt Ideal))
    (W2 : (⟨S16x16, .f32⟩ : BufTy).Contents (Elt Ideal)) (b2 : (⟨S16, .f32⟩ : BufTy).Contents (Elt Ideal))
    (Wd : (⟨S16x1, .f32⟩ : BufTy).Contents (Elt Ideal)) (bd : (⟨S1, .f32⟩ : BufTy).Contents (Elt Ideal)) :
    (⟨S200000x1, .f32⟩ : BufTy).Contents (Elt Ideal) :=
  shift
    (prod
      (rect
        (agg (prod (rect (agg (prod x W1) src dst w) (shapeCast S1x16 b1 shapeCasts_S16_S1x16)) W2) src dst w)
        (shapeCast S1x16 b2 shapeCasts_S16_S1x16))
      Wd)
    (shapeCast S1x1 bd shapeCasts_S1_S1x1)

end Cert.GNN

end
-- ==== Proof.Region0.lean ====
/-
  The first projection, tile by tile: what the first grid leaves in its output array.

  Grid point `t` loads rows `20000·t … 20000·t + 19999` of the node features and the whole first weight matrix, and
  stores their product into the same rows of the output. An output row depends on its own input row only, so the ten
  tiles together hold the product of the whole arrays; every row lies in exactly one tile, the one numbered
  `row / 20000`.
-/
import proofs.«167004_j62491774157019_1_alg».proof.Proof.Gen.KernelIdeal.Frame
import proofs.«167004_j62491774157019_1_alg».proof.Proof.Layers

set_option maxRecDepth 16384

noncomputable section

namespace Cert.KernelIdeal.Proj

open Idealize.ShloMosaic Idealize.ShloMosaic.TcCoe Idealize.ShloMosaic.ValueIdx Idealize.SL.Sem
open Idealize.ShloMosaic.Pipeline (Dat)
open Cert.KernelIdeal Cert.KernelIdeal.Gen Cert.GNN

variable (V : (c : Dev nD) → (b : Ref sig .tc) → Buf (Elt Ideal) ((c : Thread nD τ).loc b))

theorem origin : (![0, 0] : Fin 2 → Nat) = fun _ => 0 := funext fun a => by fin_cases a <;> rfl

/-- The printed contraction record is the plain rows-by-columns one. -/
theorem record_plain : dot_S20000x128_S128x16_S20000x16_1_0_0_1_n_n = DotDims.plain 20000 128 16 := rfl

/-- The body's one stored value is the product of the two loaded tiles. -/
theorem payload (x : Vec Ideal S20000x128 .f32) (W : Vec Ideal S128x16 .f32) : k0_pay1 x W = prod x W := by
  unfold k0_pay1
  exact tile_prod _ record_plain _ x W

/-- The index maps over the grid: the feature tile and the output tile move together down the rows, one tile per grid
    point; the weight matrix is one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the product of the whole arrays. -/
theorem flushed_eq (c : Dev nD) (t : Fin cfg0.N) :
    (dat0 V c).flushed 2 t = ((cfg0.win 2).blk t).view.read (Elt Ideal) (prod (V c main_arg0) (V c main_arg4)) := by
  show (cfg0.win 2).cut (grid0.coords t) ((dat0 V c).after 2 t) = _
  rw [after0_2]
  unfold out0_2
  rw [View.canon_unit_zero origin]
  simp only [View.ld_unit_zero (S := S20000x128) origin, View.ld_unit_zero (S := S128x16) origin]
  rw [payload]
  obtain ⟨e0, e1, e2, e3, e4, e5⟩ := index_facts t
  funext j
  show prod (iblk0 V c 0 t) (iblk0 V c 1 t) j = prod (V c main_arg0) (V c main_arg4) (((cfg0.win 2).blk t).view.emb j)
  unfold prod
  refine Finset.sum_congr rfl fun k _ => ?_
  have hx : iblk0 V c 0 t (ix2 (⟨(j 0).val, idx2_lt0 j⟩ : Fin 20000) k)
      = V c main_arg0 (ix2 (⟨((((cfg0.win 2).blk t).view.emb j) 0).val, idx2_lt0 _⟩ : Fin 200000) k) := by
    show V c main_arg0 (((cfg0.win 0).blk t).view.emb (ix2 (⟨(j 0).val, idx2_lt0 j⟩ : Fin 20000) k)) = _
    refine congrArg (V c main_arg0) (funext fun a => Fin.ext ?_)
    match a with
    | ⟨0, _⟩ =>
      show win0_0.index t (0 : Fin 2) * 20000 + 1 * (j 0).val = win0_2.index t (0 : Fin 2) * 20000 + 1 * (j 0).val
      omega
    | ⟨1, _⟩ =>
      show win0_0.index t (1 : Fin 2) * 128 + 1 * k.val = k.val
      omega
  have hW : iblk0 V c 1 t (ix2 k (⟨(j 1).val, idx2_lt1 j⟩ : Fin 16))
      = V c main_arg4 (ix2 k (⟨((((cfg0.win 2).blk t).view.emb j) 1).val, idx2_lt1 _⟩ : Fin 16)) := by
    show V c main_arg4 (((cfg0.win 1).blk t).view.emb (ix2 k (⟨(j 1).val, idx2_lt1 j⟩ : Fin 16))) = _
    refine congrArg (V c main_arg4) (funext fun a => Fin.ext ?_)
    match a with
    | ⟨0, _⟩ =>
      show win0_1.index t (0 : Fin 2) * 128 + 1 * k.val = k.val
      omega
    | ⟨1, _⟩ =>
      show win0_1.index t (1 : Fin 2) * 16 + 1 * (j 1).val = win0_2.index t (1 : Fin 2) * 16 + 1 * (j 1).val
      omega
  rw [hx, hW]

/-- An index of the output array is in point `t`'s tile iff each coordinate is in the tile's range on its axis. -/
theorem mem_tile (t : Fin cfg0.N) (i : S200000x16.Idx) :
    i ∈ ((cfg0.win 2).blk t).view.set ↔ ∀ a : Fin 2, win0_2.index t a * S20000x16.size a ≤ (i a).val ∧ (i a).val < win0_2.index t a * S20000x16.size a + S20000x16.size a := by
  show i ∈ ((View.whole main_v0).slice (win0_2.rect t)).set ↔ _
  rw [View.set_slice_whole, Rect.mem_set_unit]
  exact Iff.rfl

/-- Every index of the output array lies in some point's tile: row `r` in tile `r / 20000`. -/
theorem covered (i : S200000x16.Idx) :
    ∃ t : Fin cfg0.N, (cfg0.win 2).flush t = true ∧ i ∈ ((cfg0.win 2).blk t).view.set := by
  have hi0 : (i 0).val < 200000 := (i 0).isLt
  have hi1 : (i 1).val < 16 := (i 1).isLt
  let t : Fin cfg0.N := ⟨(i 0).val / 20000, by rw [show cfg0.N = 10 from N_0]; omega⟩
  obtain ⟨-, -, -, -, e4, e5⟩ := index_facts t
  have ht : t.val = (i 0).val / 20000 := rfl
  refine ⟨t, flush0_2 t, ?_⟩
  rw [mem_tile]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 16 ≤ (i 1).val ∧ (i 1).val < win0_2.index t (1 : Fin 2) * 16 + 16; omega

/-- The output array after the grid: the product of the feature array and the weight matrix as the grid finds them. -/
theorem final (c : Dev nD) : (dat0 V c).arrAt 2 cfg0.N = prod (V c main_arg0) (V c main_arg4) :=
  (dat0 V c).arrAt_eq_of_cover 2 _ (fun t _ => flushed_eq V c t) covered

end Cert.KernelIdeal.Proj

end
-- ==== Proof.Region1.lean ====
/-
  The middle layer, tile by tile: what the second grid leaves in its output array.

  Grid point `t` loads rows `20000·t … 20000·t + 19999` of the aggregated features, the bias row and the second weight
  matrix (each of the last two one block, the same at every point), adds the bias to every row, cuts at zero, and stores the
  product with the weights into the same rows of the output. An output row depends on its own input row only, so the
  ten tiles together hold the layer of the whole arrays.
-/
import proofs.«167004_j62491774157019_1_alg».proof.Proof.Gen.KernelIdeal.Frame
import proofs.«167004_j62491774157019_1_alg».proof.Proof.Layers

set_option maxRecDepth 16384

noncomputable section

namespace Cert.KernelIdeal.Hidden

open Idealize.ShloMosaic Idealize.ShloMosaic.TcCoe Idealize.ShloMosaic.ValueIdx Idealize.SL.Sem
open Idealize.ShloMosaic.Pipeline (Dat)
open Cert.KernelIdeal Cert.KernelIdeal.Gen Cert.GNN

variable (V : (c : Dev nD) → (b : Ref sig .tc) → Buf (Elt Ideal) ((c : Thread nD τ).loc b))

theorem origin : (![0, 0] : Fin 2 → Nat) = fun _ => 0 := funext fun a => by fin_cases a <;> rfl

/-- The printed contraction record is the plain rows-by-columns one. -/
theorem record_plain : dot_S20000x16_S16x16_S20000x16_1_0_0_1_n_n = DotDims.plain 20000 16 16 := rfl

/-- The body's one stored value: the tile plus the bias row, cut at zero, times the weights. -/
theorem payload (x : Vec Ideal S20000x16 .f32) (b : Vec Ideal S1x16 .f32) (W : Vec Ideal S16x16 .f32) :
    k1_pay1 x b W = prod (rect x b) W := by
  unfold k1_pay1
  exact tile_hidden _ record_plain _ _ _ _ x b W

/-- The index maps over the grid: the input tile and the output tile move together down the rows; the bias row and the
    weight matrix are one block each. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's block is the whole bias row, at every point. -/
theorem bias_whole (c : Dev nD) (t : Fin cfg1.N) : (iblk1 V c 1 t : Vec Ideal S1x16 .f32) = V c main_v14 := by
  obtain ⟨-, -, e2, e3, -, -, -, -⟩ := index_facts t
  funext y
  show V c main_v14 (((cfg1.win 1).blk t).view.emb y) = V c main_v14 y
  refine congrArg (V c main_v14) (funext fun a => Fin.ext ?_)
  match a with
  | ⟨0, _⟩ => show win1_1.index t (0 : Fin 2) * 1 + 1 * (y 0).val = (y 0).val; omega
  | ⟨1, _⟩ => show win1_1.index t (1 : Fin 2) * 16 + 1 * (y 1).val = (y 1).val; omega

/-- The weight window's block is the whole weight matrix, at every point. -/
theorem weight_whole (c : Dev nD) (t : Fin cfg1.N) : (iblk1 V c 2 t : Vec Ideal S16x16 .f32) = V c main_arg6 := by
  obtain ⟨-, -, -, -, e4, e5, -, -⟩ := index_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 16 + 1 * (y 0).val = (y 0).val; omega
  | ⟨1, _⟩ => show win1_2.index t (1 : Fin 2) * 16 + 1 * (y 1).val = (y 1).val; omega

/-- What point `t` writes back is tile `t` of the layer of the whole arrays. -/
theorem flushed_eq (c : Dev nD) (t : Fin cfg1.N) :
    (dat1 V c).flushed 3 t
      = ((cfg1.win 3).blk t).view.read (Elt Ideal) (prod (rect (V c main_v13) (V c main_v14)) (V c main_arg6)) := by
  show (cfg1.win 3).cut (grid1.coords t) ((dat1 V c).after 3 t) = _
  rw [after1_3]
  unfold out1_3
  rw [View.canon_unit_zero origin]
  simp only [View.ld_unit_zero (S := S20000x16) origin, View.ld_unit_zero (S := S1x16) origin,
    View.ld_unit_zero (S := S16x16) origin]
  rw [payload, bias_whole V c t, weight_whole V c t]
  obtain ⟨e0, e1, -, -, -, -, e6, e7⟩ := index_facts t
  funext j
  show prod (rect (iblk1 V c 0 t) (V c main_v14)) (V c main_arg6) j
    = prod (rect (V c main_v13) (V c main_v14)) (V c main_arg6) (((cfg1.win 3).blk t).view.emb j)
  refine prod_rect_rows (V c main_v13) (iblk1 V c 0 t) (V c main_v14) (V c main_arg6) j _ ?_ fun k => ?_
  · show win1_3.index t (1 : Fin 2) * 16 + 1 * (j 1).val = (j 1).val
    omega
  · show V c main_v13 (((cfg1.win 0).blk t).view.emb (ix2 (⟨(j 0).val, idx2_lt0 j⟩ : Fin 20000) k)) = _
    refine congrArg (V c main_v13) (funext fun a => Fin.ext ?_)
    match a with
    | ⟨0, _⟩ =>
      show win1_0.index t (0 : Fin 2) * 20000 + 1 * (j 0).val = win1_3.index t (0 : Fin 2) * 20000 + 1 * (j 0).val
      omega
    | ⟨1, _⟩ =>
      show win1_0.index t (1 : Fin 2) * 16 + 1 * k.val = k.val
      omega

/-- An index of the output array is in point `t`'s tile iff each coordinate is in the tile's range on its axis. -/
theorem mem_tile (t : Fin cfg1.N) (i : S200000x16.Idx) :
    i ∈ ((cfg1.win 3).blk t).view.set ↔ ∀ a : Fin 2, win1_3.index t a * S20000x16.size a ≤ (i a).val ∧ (i a).val < win1_3.index t a * S20000x16.size a + S20000x16.size a := by
  show i ∈ ((View.whole main_v15).slice (win1_3.rect t)).set ↔ _
  rw [View.set_slice_whole, Rect.mem_set_unit]
  exact Iff.rfl

/-- Every index of the output array lies in some point's tile: row `r` in tile `r / 20000`. -/
theorem covered (i : S200000x16.Idx) :
    ∃ t : Fin cfg1.N, (cfg1.win 3).flush t = true ∧ i ∈ ((cfg1.win 3).blk t).view.set := by
  have hi0 : (i 0).val < 200000 := (i 0).isLt
  have hi1 : (i 1).val < 16 := (i 1).isLt
  let t : Fin cfg1.N := ⟨(i 0).val / 20000, by rw [show cfg1.N = 10 from N_1]; omega⟩
  obtain ⟨-, -, -, -, -, -, e6, e7⟩ := index_facts t
  have ht : t.val = (i 0).val / 20000 := rfl
  refine ⟨t, flush1_3 t, ?_⟩
  rw [mem_tile]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 16 ≤ (i 1).val ∧ (i 1).val < win1_3.index t (1 : Fin 2) * 16 + 16; omega

/-- The output array after the grid: the layer of the aggregated features, the bias row and the weights as the grid
    finds them. -/
theorem final (c : Dev nD) :
    (dat1 V c).arrAt 3 cfg1.N = prod (rect (V c main_v13) (V c main_v14)) (V c main_arg6) :=
  (dat1 V c).arrAt_eq_of_cover 3 _ (fun t _ => flushed_eq V c t) covered

end Cert.KernelIdeal.Hidden

end
-- ==== Proof.Region2.lean ====
/-
  The last layer, tile by tile: what the third grid leaves in the result array.

  Grid point `t` loads rows `20000·t … 20000·t + 19999` of the aggregated features, the bias row, the one-column weight
  matrix and the one output bias (the last three one block each), adds the bias to every row, cuts at zero, multiplies
  by the weights and adds the output bias, and stores that into the same rows of the result. An output row depends on
  its own input row only, so the ten tiles together hold the layer of the whole arrays.
-/
import proofs.«167004_j62491774157019_1_alg».proof.Proof.Gen.KernelIdeal.Frame
import proofs.«167004_j62491774157019_1_alg».proof.Proof.Layers

set_option maxRecDepth 16384

noncomputable section

namespace Cert.KernelIdeal.Head

open Idealize.ShloMosaic Idealize.ShloMosaic.TcCoe Idealize.ShloMosaic.ValueIdx Idealize.SL.Sem
open Idealize.ShloMosaic.Pipeline (Dat)
open Cert.KernelIdeal Cert.KernelIdeal.Gen Cert.GNN

variable (V : (c : Dev nD) → (b : Ref sig .tc) → Buf (Elt Ideal) ((c : Thread nD τ).loc b))

theorem origin : (![0, 0] : Fin 2 → Nat) = fun _ => 0 := funext fun a => by fin_cases a <;> rfl

/-- The printed contraction record is the plain rows-by-columns one. -/
theorem record_plain : dot_S20000x16_S16x1_S20000x1_1_0_0_1_n_n = DotDims.plain 20000 16 1 := rfl

/-- The body's one stored value: the tile plus the bias row, cut at zero, times the weights, plus the output bias. -/
theorem payload (x : Vec Ideal S20000x16 .f32) (b : Vec Ideal S1x16 .f32) (W : Vec Ideal S16x1 .f32) (e : Vec Ideal S1x1 .f32) :
    k2_pay1 x b W e = shift (prod (rect x b) W) e := by
  unfold k2_pay1
  exact tile_head _ record_plain _ _ _ _ _ _ x b W e

/-- The index maps over the grid: the input tile and the output tile move together down the rows; the bias row, the
    weight matrix and the output bias are one block each. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The bias window's block is the whole bias row, at every point. -/
theorem bias_whole (c : Dev nD) (t : Fin cfg2.N) : (iblk2 V c 1 t : Vec Ideal S1x16 .f32) = V c main_v29 := by
  obtain ⟨-, -, e2, e3, -, -, -, -, -, -⟩ := index_facts t
  funext y
  show V c main_v29 (((cfg2.win 1).blk t).view.emb y) = V c main_v29 y
  refine congrArg (V c main_v29) (funext fun a => Fin.ext ?_)
  match a with
  | ⟨0, _⟩ => show win2_1.index t (0 : Fin 2) * 1 + 1 * (y 0).val = (y 0).val; omega
  | ⟨1, _⟩ => show win2_1.index t (1 : Fin 2) * 16 + 1 * (y 1).val = (y 1).val; omega

/-- The weight window's block is the whole weight matrix, at every point. -/
theorem weight_whole (c : Dev nD) (t : Fin cfg2.N) : (iblk2 V c 2 t : Vec Ideal S16x1 .f32) = V c main_arg8 := by
  obtain ⟨-, -, -, -, e4, e5, -, -, -, -⟩ := index_facts t
  funext y
  show V c main_arg8 (((cfg2.win 2).blk t).view.emb y) = V c main_arg8 y
  refine congrArg (V c main_arg8) (funext fun a => Fin.ext ?_)
  match a with
  | ⟨0, _⟩ => show win2_2.index t (0 : Fin 2) * 16 + 1 * (y 0).val = (y 0).val; omega
  | ⟨1, _⟩ => show win2_2.index t (1 : Fin 2) * 1 + 1 * (y 1).val = (y 1).val; omega

/-- The output-bias window's block is the whole one-entry array, at every point. -/
theorem outbias_whole (c : Dev nD) (t : Fin cfg2.N) : (iblk2 V c 3 t : Vec Ideal S1x1 .f32) = V c main_v30 := by
  obtain ⟨-, -, -, -, -, -, e6, e7, -, -⟩ := index_facts t
  funext y
  show V c main_v30 (((cfg2.win 3).blk t).view.emb y) = V c main_v30 y
  refine congrArg (V c main_v30) (funext fun a => Fin.ext ?_)
  match a with
  | ⟨0, _⟩ => show win2_3.index t (0 : Fin 2) * 1 + 1 * (y 0).val = (y 0).val; omega
  | ⟨1, _⟩ => show win2_3.index t (1 : Fin 2) * 1 + 1 * (y 1).val = (y 1).val; omega

/-- What point `t` writes back is tile `t` of the layer of the whole arrays. -/
theorem flushed_eq (c : Dev nD) (t : Fin cfg2.N) :
    (dat2 V c).flushed 4 t
      = ((cfg2.win 4).blk t).view.read (Elt Ideal)
          (shift (prod (rect (V c main_v28) (V c main_v29)) (V c main_arg8)) (V c main_v30)) := by
  show (cfg2.win 4).cut (grid2.coords t) ((dat2 V c).after 4 t) = _
  rw [after2_4]
  unfold out2_4
  rw [View.canon_unit_zero origin]
  simp only [View.ld_unit_zero (S := S20000x16) origin, View.ld_unit_zero (S := S1x16) origin,
    View.ld_unit_zero (S := S16x1) origin, View.ld_unit_zero (S := S1x1) origin]
  rw [payload, bias_whole V c t, weight_whole V c t, outbias_whole V c t]
  obtain ⟨e0, e1, -, -, -, -, -, -, e8, e9⟩ := index_facts t
  funext j
  show shift (prod (rect (iblk2 V c 0 t) (V c main_v29)) (V c main_arg8)) (V c main_v30) j
    = shift (prod (rect (V c main_v28) (V c main_v29)) (V c main_arg8)) (V c main_v30) (((cfg2.win 4).blk t).view.emb j)
  refine shift_prod_rect_rows (V c main_v28) (iblk2 V c 0 t) (V c main_v29) (V c main_arg8) (V c main_v30) j _ ?_ fun k => ?_
  · show win2_4.index t (1 : Fin 2) * 1 + 1 * (j 1).val = (j 1).val
    omega
  · show V c main_v28 (((cfg2.win 0).blk t).view.emb (ix2 (⟨(j 0).val, idx2_lt0 j⟩ : Fin 20000) k)) = _
    refine congrArg (V c main_v28) (funext fun a => Fin.ext ?_)
    match a with
    | ⟨0, _⟩ =>
      show win2_0.index t (0 : Fin 2) * 20000 + 1 * (j 0).val = win2_4.index t (0 : Fin 2) * 20000 + 1 * (j 0).val
      omega
    | ⟨1, _⟩ =>
      show win2_0.index t (1 : Fin 2) * 16 + 1 * k.val = k.val
      omega

/-- An index of the result array is in point `t`'s tile iff each coordinate is in the tile's range on its axis. -/
theorem mem_tile (t : Fin cfg2.N) (i : S200000x1.Idx) :
    i ∈ ((cfg2.win 4).blk t).view.set ↔ ∀ a : Fin 2, win2_4.index t a * S20000x1.size a ≤ (i a).val ∧ (i a).val < win2_4.index t a * S20000x1.size a + S20000x1.size a := by
  show i ∈ ((View.whole main_v31).slice (win2_4.rect t)).set ↔ _
  rw [View.set_slice_whole, Rect.mem_set_unit]
  exact Iff.rfl

/-- Every index of the result array lies in some point's tile: row `r` in tile `r / 20000`. -/
theorem covered (i : S200000x1.Idx) :
    ∃ t : Fin cfg2.N, (cfg2.win 4).flush t = true ∧ i ∈ ((cfg2.win 4).blk t).view.set := by
  have hi0 : (i 0).val < 200000 := (i 0).isLt
  have hi1 : (i 1).val < 1 := (i 1).isLt
  let t : Fin cfg2.N := ⟨(i 0).val / 20000, by rw [show cfg2.N = 10 from N_2]; omega⟩
  obtain ⟨-, -, -, -, -, -, -, -, e8, e9⟩ := index_facts t
  have ht : t.val = (i 0).val / 20000 := rfl
  refine ⟨t, flush2_4 t, ?_⟩
  rw [mem_tile]
  intro a
  match a with
  | ⟨0, _⟩ => show win2_4.index t (0 : Fin 2) * 20000 ≤ (i 0).val ∧ (i 0).val < win2_4.index t (0 : Fin 2) * 20000 + 20000; omega
  | ⟨1, _⟩ => show win2_4.index t (1 : Fin 2) * 1 ≤ (i 1).val ∧ (i 1).val < win2_4.index t (1 : Fin 2) * 1 + 1; omega

/-- The result array after the grid: the last layer of the aggregated features, the bias row, the weights and the output
    bias as the grid finds them. -/
theorem final (c : Dev nD) :
    (dat2 V c).arrAt 4 cfg2.N = shift (prod (rect (V c main_v28) (V c main_v29)) (V c main_arg8)) (V c main_v30) :=
  (dat2 V c).arrAt_eq_of_cover 4 _ (fun t _ => flushed_eq V c t) covered

end Cert.KernelIdeal.Head

end
-- ==== Proof.KernelValue.lean ====
/-
  The kernel program's result, read back through its run: the network of the launch arguments.

  The run is three grids with a stretch of host operations after each of the first two. Reading the result array
  backwards: the third grid leaves the last layer of what it found; what it found is the aggregation of the second
  grid's output (and the second bias and the output bias, re-laid as rows); the second grid leaves the middle layer of
  what it found, which is the aggregation of the first grid's output (and the first bias as a row); the first grid
  leaves the projection of the launch features. No host operation and no grid writes an argument, so every argument
  read along the way is the launch value.
-/
import proofs.«167004_j62491774157019_1_alg».proof.Proof.Gen.KernelIdeal.Frame
import proofs.«167004_j62491774157019_1_alg».proof.Proof.Agg
import proofs.«167004_j62491774157019_1_alg».proof.Proof.Region0
import proofs.«167004_j62491774157019_1_alg».proof.Proof.Region1
import proofs.«167004_j62491774157019_1_alg».proof.Proof.Region2
import Idealize.ShloMosaic.Lib.StableHlo.Run

set_option maxRecDepth 16384

noncomputable section

namespace Cert.KernelIdeal.Net

open Idealize.ShloMosaic Idealize.ShloMosaic.TcCoe Idealize.SL.Sem Idealize.ShloMosaic.StableHlo
open Cert.KernelIdeal Cert.KernelIdeal.Gen Cert.GNN

variable (m : (ℓ : Loc nD τ sig) → Buf (Elt Ideal) ℓ) (ρ : Dev nD → PrngReg)

/-! ## After the first grid -/

theorem proj1 (c : Dev nD) :
    W1 m ρ c (Proc.devRef .tc main_v0) = prod (m ((c : Thread nD τ).loc main_arg0)) (m ((c : Thread nD τ).loc main_arg4)) :=
  (W1_arr m ρ c 2).trans (Proj.final (V0 m ρ) c)

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)
theorem W1_arg7 (c : Dev nD) : W1 m ρ c (Proc.devRef .tc main_arg7) = m ((c : Thread nD τ).loc main_arg7) :=
  W1_of_ne m ρ c main_arg7 (by decide)
theorem W1_arg8 (c : Dev nD) : W1 m ρ c (Proc.devRef .tc main_arg8) = m ((c : Thread nD τ).loc main_arg8) :=
  W1_of_ne m ρ c main_arg8 (by decide)
theorem W1_arg9 (c : Dev nD) : W1 m ρ c (Proc.devRef .tc main_arg9) = m ((c : Thread nD τ).loc main_arg9) :=
  W1_of_ne m ρ c main_arg9 (by decide)

/-! ## After the first host stretch -/

theorem agg1 (c : Dev nD) :
    W2 m ρ c (Proc.devRef .tc main_v13)
      = agg (W1 m ρ c (Proc.devRef .tc main_v0)) (W1 m ρ c (Proc.devRef .tc main_arg1))
          (W1 m ρ c (Proc.devRef .tc main_arg2)) (W1 m ρ c (Proc.devRef .tc main_arg3)) := by
  show StableHlo.after hostOps1 (W1 m ρ c) (Proc.devRef .tc main_v13) = _
  after_results_simp
  rfl

theorem bias1 (c : Dev nD) :
    W2 m ρ c (Proc.devRef .tc main_v14) = shapeCast S1x16 (W1 m ρ c (Proc.devRef .tc main_arg5)) shapeCasts_S16_S1x16 := by
  show StableHlo.after hostOps1 (W1 m ρ c) (Proc.devRef .tc main_v14) = _
  after_results_simp
  rfl

theorem W2_keeps (c : Dev nD) (b : Ref sig .tc)
    (hb : b ∉ [main_c, main_v1, main_v2, main_c_0, main_v3, main_v4, main_v5, main_v6, main_v7, main_v8, main_v9, main_v10,
      main_cst, main_v11, main_v12, main_v13, main_v14]) :
    W2 m ρ c (Proc.devRef .tc b) = W1 m ρ c (Proc.devRef .tc b) :=
  StableHlo.after_of_writes_sub hostOps1 (W1 m ρ c)
    (by simp only [hostOps1, List.Forall, StableHlo.nullary_writes, StableHlo.unary_writes, StableHlo.binary_writes,
          StableHlo.ternary_writes, StableHlo.reshape_writes]
        decide) hb

/-! ## After the second grid -/

theorem proj2 (c : Dev nD) :
    W3 m ρ c (Proc.devRef .tc main_v15)
      = prod (rect (W2 m ρ c (Proc.devRef .tc main_v13)) (W2 m ρ c (Proc.devRef .tc main_v14)))
          (W2 m ρ c (Proc.devRef .tc main_arg6)) :=
  (W3_arr m ρ c 3).trans (Hidden.final (V2 m ρ) c)

theorem W3_arg (c : Dev nD) (b : Ref sig .tc) (h3 : ∀ w, Pipeline.arrRef spec1 w ≠ b)
    (hb : b ∉ [main_c, main_v1, main_v2, main_c_0, main_v3, main_v4, main_v5, main_v6, main_v7, main_v8, main_v9, main_v10,
      main_cst, main_v11, main_v12, main_v13, main_v14]) :
    W3 m ρ c (Proc.devRef .tc b) = W1 m ρ c (Proc.devRef .tc b) :=
  (W3_of_ne m ρ c b h3).trans (W2_keeps m ρ c b hb)

/-! ## After the second host stretch -/

theorem agg2 (c : Dev nD) :
    W4 m ρ c (Proc.devRef .tc main_v28)
      = agg (W3 m ρ c (Proc.devRef .tc main_v15)) (W3 m ρ c (Proc.devRef .tc main_arg1))
          (W3 m ρ c (Proc.devRef .tc main_arg2)) (W3 m ρ c (Proc.devRef .tc main_arg3)) := by
  show StableHlo.after hostOps2 (W3 m ρ c) (Proc.devRef .tc main_v28) = _
  after_results_simp
  rfl

theorem bias2 (c : Dev nD) :
    W4 m ρ c (Proc.devRef .tc main_v29) = shapeCast S1x16 (W3 m ρ c (Proc.devRef .tc main_arg7)) shapeCasts_S16_S1x16 := by
  show StableHlo.after hostOps2 (W3 m ρ c) (Proc.devRef .tc main_v29) = _
  after_results_simp
  rfl

theorem outbias (c : Dev nD) :
    W4 m ρ c (Proc.devRef .tc main_v30) = shapeCast S1x1 (W3 m ρ c (Proc.devRef .tc main_arg9)) shapeCasts_S1_S1x1 := by
  show StableHlo.after hostOps2 (W3 m ρ c) (Proc.devRef .tc main_v30) = _
  after_results_simp
  rfl

theorem W4_arg8 (c : Dev nD) : W4 m ρ c (Proc.devRef .tc main_arg8) = W3 m ρ c (Proc.devRef .tc main_arg8) := by
  show StableHlo.after hostOps2 (W3 m ρ c) (Proc.devRef .tc main_arg8) = _
  after_results_simp

/-! ## After the third grid -/

theorem head (c : Dev nD) :
    W5 m ρ c (Proc.devRef .tc main_v31)
      = shift (prod (rect (W4 m ρ c (Proc.devRef .tc main_v28)) (W4 m ρ c (Proc.devRef .tc main_v29)))
          (W4 m ρ c (Proc.devRef .tc main_arg8))) (W4 m ρ c (Proc.devRef .tc main_v30)) :=
  (W5_arr m ρ c 4).trans (Head.final (V4 m ρ) c)

/-- The result array after the run is the network of the launch arguments. -/
theorem result (c : Dev nD) :
    W5 m ρ c (Proc.devRef .tc main_v31)
      = net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  rw [head, agg2, bias2, outbias, W4_arg8, proj2, agg1, bias1, W2_keeps m ρ c main_arg6 (by decide), proj1,
    W3_arg m ρ c main_arg1 (by decide) (by decide), W3_arg m ρ c main_arg2 (by decide) (by decide),
    W3_arg m ρ c main_arg3 (by decide) (by decide), W3_arg m ρ c main_arg7 (by decide) (by decide),
    W3_arg m ρ c main_arg8 (by decide) (by decide), W3_arg m ρ c main_arg9 (by decide) (by decide),
    W1_arg1, W1_arg2, W1_arg3, W1_arg5, W1_arg6, W1_arg7, W1_arg8, W1_arg9]
  rfl

end Cert.KernelIdeal.Net

end
-- ==== Proof.RefValue.lean ====
/-
  The reference program's result: the same network of its arguments.

  The reference is host operations only. Its three products are plain rows-by-columns products; each bias vector is
  broadcast first to one row and then over all rows, which at entry `(p, k)` reads the vector at `k`, exactly what the
  row laid out by a reshape reads; the maximum with a broadcast zero is the cut at zero; the gather, scale and
  scatter-add between the layers is the aggregation, operation for operation. So the composed term of the reference's
  run is the network, layer by layer.
-/
import proofs.«167004_j62491774157019_1_alg».proof.Proof.Gen.ReferenceIdeal.Read
import proofs.«167004_j62491774157019_1_alg».proof.Proof.Agg
import Idealize.ShloMosaic.Lib.Pipeline.Value
import Idealize.ShloMosaic.Lib.ValueLayout

set_option maxRecDepth 16384

noncomputable section

namespace Cert.ReferenceIdeal.Net

open Idealize.ShloMosaic Idealize.ShloMosaic.ValueIdx
open Cert.ReferenceIdeal Cert.ReferenceIdeal.Gen Cert.GNN

/-- A host product over a plain contraction record is the rows-by-columns product. -/
theorem host_prod {M K N : ℕ} (d : DotDims ⟨2, ![M, K]⟩ ⟨2, ![K, N]⟩ ⟨2, ![M, N]⟩) (hd : d = DotDims.plain M K N)
    (x : FVec Ideal ⟨2, ![M, K]⟩ .f32) (W : FVec Ideal ⟨2, ![K, N]⟩ .f32) :
    Host.dotGeneral (F := Ideal) d none x W = prod x W := by
  subst hd
  funext j
  obtain ⟨p, q, rfl⟩ : ∃ (p : Fin M) (q : Fin N), j = ix2 p q := ⟨j 0, j 1, eq_ix2 j⟩
  show FloatOps.dotGeneral (DotDims.plain M K N) none .single x W (ix2 p q) = _
  rw [dotGeneral_plain_apply, prod_apply]

theorem prod1 (x : (⟨S200000x128, .f32⟩ : BufTy).Contents (Elt Ideal)) (W : (⟨S128x16, .f32⟩ : BufTy).Contents (Elt Ideal)) :
    Host.dotGeneral (F := Ideal) (φ₁ := .f32) (φ₂ := .f32) dot_S200000x128_S128x16_S200000x16_1_0_0_1_n_n none x W = prod x W :=
  host_prod _ rfl x W
theorem prod2 (x : (⟨S200000x16, .f32⟩ : BufTy).Contents (Elt Ideal)) (W : (⟨S16x16, .f32⟩ : BufTy).Contents (Elt Ideal)) :
    Host.dotGeneral (F := Ideal) (φ₁ := .f32) (φ₂ := .f32) dot_S200000x16_S16x16_S200000x16_1_0_0_1_n_n none x W = prod x W :=
  host_prod _ rfl x W
theorem prod3 (x : (⟨S200000x16, .f32⟩ : BufTy).Contents (Elt Ideal)) (W : (⟨S16x1, .f32⟩ : BufTy).Contents (Elt Ideal)) :
    Host.dotGeneral (F := Ideal) (φ₁ := .f32) (φ₂ := .f32) dot_S200000x16_S16x1_S200000x1_1_0_0_1_n_n none x W = prod x W :=
  host_prod _ rfl x W

/-- The gather, scale and scatter-add between two layers is the aggregation: the same operations in the same order. -/
theorem chain_agg (P : (⟨S200000x16, .f32⟩ : BufTy).Contents (Elt Ideal))
    (src dst : (⟨S6400000, .i32⟩ : BufTy).Contents (Elt Ideal)) (w : (⟨S6400000, .f32⟩ : BufTy).Contents (Elt Ideal)) :
    Host.scatterAdd scatter_S200000x16_S6400000x1_S6400000x16_1_0_0_1
        (broadcastInDim S200000x16 ![] bcast_S_S200000x16 (constant (F := Ideal) S_ .f32 0x00000000#32))
        (broadcastInDim S6400000x1 ![0] bcast_S6400000_S6400000x1_0 dst)
        (mulf
          (Host.gather gather_S200000x16_S6400000x1_S6400000x16_1_0_n_n_0_1_116 P
            (broadcastInDim S6400000x1 ![0] bcast_S6400000_S6400000x1_0
              (select (cmpi .slt src (broadcastInDim S6400000 ![] bcast_S_S6400000 (constantI S_ 32 0#32)))
                (addi src (broadcastInDim S6400000 ![] bcast_S_S6400000 (constantI S_ 32 200000#32))) src)))
          (broadcastInDim S6400000x16 ![0, 1] bcast_S6400000x1_S6400000x16_0_1
            (broadcastInDim S6400000x1 ![0] bcast_S6400000_S6400000x1_0 w)))
      = agg P src dst w := rfl

/-- A bias vector broadcast to one row and then over all rows, added, and cut at a broadcast zero: the bias laid out as
    a row by a reshape, added to every row, cut at zero. -/
theorem bias_cut (A : (⟨S200000x16, .f32⟩ : BufTy).Contents (Elt Ideal)) (b : (⟨S16, .f32⟩ : BufTy).Contents (Elt Ideal))
    (h : S16.ShapeCasts S1x16) :
    maximumf
        (addf A (broadcastInDim S200000x16 ![0, 1] bcast_S1x16_S200000x16_0_1 (broadcastInDim S1x16 ![1] bcast_S16_S1x16_1 b)))
        (broadcastInDim S200000x16 ![] bcast_S_S200000x16 (constant (F := Ideal) S_ .f32 0x00000000#32))
      = rect A (shapeCast S1x16 b h) := by
  funext j
  obtain ⟨p, k, rfl⟩ : ∃ (p : Fin 200000) (k : Fin 16), j = ix2 p k := ⟨j 0, j 1, eq_ix2 j⟩
  rw [maximumf_apply, addf_apply, rect_apply, shapeCast_a_1a_apply,
    broadcastInDim_apply _ bcast_S1x16_S200000x16_0_1 _ (ix2 p k) (ix2 (0 : Fin 1) k) (fun a => match a with
      | ⟨0, _⟩ => by show 0 = if (1 : Nat) = 1 then 0 else p.val; rw [if_pos rfl]
      | ⟨1, _⟩ => by show k.val = if (16 : Nat) = 1 then 0 else k.val; rw [if_neg (by decide)]),
    broadcastInDim_apply _ bcast_S16_S1x16_1 b (ix2 (0 : Fin 1) k) (ix1 k) (fun a => match a with
      | ⟨0, _⟩ => by show k.val = if (16 : Nat) = 1 then 0 else k.val; rw [if_neg (by decide)]),
    broadcastInDim_apply _ bcast_S_S200000x16 _ (ix2 p k) ix0 (fun a => a.elim0)]
  rfl

/-- The output bias broadcast to one entry and then over all rows, added: the output bias as a one-entry row, added to
    every row. -/
theorem outbias_add (Y : (⟨S200000x1, .f32⟩ : BufTy).Contents (Elt Ideal)) (e : (⟨S1, .f32⟩ : BufTy).Contents (Elt Ideal))
    (h : S1.ShapeCasts S1x1) :
    addf Y (broadcastInDim S200000x1 ![0, 1] bcast_S1x1_S200000x1_0_1 (broadcastInDim S1x1 ![1] bcast_S1_S1x1_1 e))
      = shift Y (shapeCast S1x1 e h) := by
  funext j
  obtain ⟨p, q, rfl⟩ : ∃ (p : Fin 200000) (q : Fin 1), j = ix2 p q := ⟨j 0, j 1, eq_ix2 j⟩
  have hq : q = 0 := Fin.ext (by omega)
  subst hq
  rw [addf_apply, shift_apply, shapeCast_a_1a_apply,
    broadcastInDim_apply _ bcast_S1x1_S200000x1_0_1 _ (ix2 p (0 : Fin 1)) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else 0; rw [if_pos rfl]),
    broadcastInDim_apply _ bcast_S1_S1x1_1 e (ix2 (0 : Fin 1) (0 : Fin 1)) (ix1 (0 : Fin 1)) (fun a => match a with
      | ⟨0, _⟩ => by show 0 = if (1 : Nat) = 1 then 0 else 0; rw [if_pos rfl])]

/-- The reference's result is the network of its arguments. -/
theorem result (x0 : (⟨S200000x128, .f32⟩ : BufTy).Contents (Elt Ideal)) (x1 x2 : (⟨S6400000, .i32⟩ : BufTy).Contents (Elt Ideal))
    (x3 : (⟨S6400000, .f32⟩ : BufTy).Contents (Elt Ideal)) (x4 : (⟨S128x16, .f32⟩ : BufTy).Contents (Elt Ideal))
    (x5 : (⟨S16, .f32⟩ : BufTy).Contents (Elt Ideal)) (x6 : (⟨S16x16, .f32⟩ : BufTy).Contents (Elt Ideal))
    (x7 : (⟨S16, .f32⟩ : BufTy).Contents (Elt Ideal)) (x8 : (⟨S16x1, .f32⟩ : BufTy).Contents (Elt Ideal))
    (x9 : (⟨S1, .f32⟩ : BufTy).Contents (Elt Ideal)) :
    Read.val_main_v39 (F := Ideal) x0 x1 x2 x3 x4 x5 x6 x7 x8 x9 = net x0 x1 x2 x3 x4 x5 x6 x7 x8 x9 := by
  rw [← Read.val_main_v39_eq]
  rw [prod1, chain_agg, bias_cut _ _ Cert.KernelIdeal.Gen.shapeCasts_S16_S1x16, prod2, chain_agg,
    bias_cut _ _ Cert.KernelIdeal.Gen.shapeCasts_S16_S1x16, prod3, outbias_add _ _ Cert.KernelIdeal.Gen.shapeCasts_S1_S1x1]
  rfl

end Cert.ReferenceIdeal.Net

end
-- ==== Proof.lean ====
/-
  A two-layer graph convolution with a one-column dense head, computed two ways, and the same at the ideal values.

  The kernel program runs the three dense layers as three grids of ten row tiles each (20000 rows a tile), narrowing
  the operands of each product to a 16-bit format, and leaves the sparse aggregation between the layers to host
  operations; the reference runs everything as host operations on whole arrays. At the ideal values a change of float
  format is the identity and a product into a zero accumulator is the bare sum over the contracted axis, so each tile
  holds the layer of its own rows, the ten tiles together hold the layer of the whole array, and the aggregation is
  the same operations on both sides. Both results are therefore the one function `Cert.GNN.net` of the ten arguments:

      out = max(A₂ + b₂, 0) · W_d + b_d,   A₂ = agg(max(A₁ + b₁, 0) · W₂),   A₁ = agg(x · W₁),

  where `agg` gathers rows at the source indices, scales them by the edge weights and adds them up at the destination
  indices. No law is used that could fail at an infinity (nothing is distributed, cancelled or moved across a sum), so
  the finiteness of the inputs is never opened. The idealization rewrote nothing, so what it preserves is trivial.
-/
import proofs.«167004_j62491774157019_1_alg».proof.Defs
import proofs.«167004_j62491774157019_1_alg».proof.Proof.Gen.Kernel
import proofs.«167004_j62491774157019_1_alg».proof.Proof.Gen.Kernel.Skeleton
import proofs.«167004_j62491774157019_1_alg».proof.Proof.Gen.Kernel.Launch
import proofs.«167004_j62491774157019_1_alg».proof.Proof.Gen.Kernel.Points
import proofs.«167004_j62491774157019_1_alg».proof.Proof.Gen.Kernel.Frame
import proofs.«167004_j62491774157019_1_alg».proof.Proof.Gen.KernelIdeal
import proofs.«167004_j62491774157019_1_alg».proof.Proof.Gen.KernelIdeal.Skeleton
import proofs.«167004_j62491774157019_1_alg».proof.Proof.Gen.KernelIdeal.Launch
import proofs.«167004_j62491774157019_1_alg».proof.Proof.Gen.KernelIdeal.Points
import proofs.«167004_j62491774157019_1_alg».proof.Proof.Gen.KernelIdeal.Frame
import proofs.«167004_j62491774157019_1_alg».proof.Proof.Gen.ReferenceIdeal
import proofs.«167004_j62491774157019_1_alg».proof.Proof.Gen.Pre_finite_inputs
import proofs.«167004_j62491774157019_1_alg».proof.Proof.Gen.ReferenceIdeal.Run
import proofs.«167004_j62491774157019_1_alg».proof.Proof.Gen.ReferenceIdeal.Read
import proofs.«167004_j62491774157019_1_alg».proof.Proof.KernelRun
import proofs.«167004_j62491774157019_1_alg».proof.Proof.KernelValue
import proofs.«167004_j62491774157019_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of those arguments as their result. -/
theorem algebraic : Cert.algebraic_KernelIdeal_ReferenceIdeal := by
  intro m ρ m' ρ' _ hagree
  refine ⟨fun c => Cert.GNN.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Net.result m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9⟩ := hagree c
    rw [(h c).1, Cert.ReferenceIdeal.Read.val_main_v39_eq, Cert.ReferenceIdeal.Net.result, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
